-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel

variable [Facts]

def fn {F : FTy → Type} [FloatOps F] (main_arg0 : FVec F S100000x16 .f32) (main_arg1 : FVec F S100000x16 .f32) (main_arg2 : IVec S2x3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S100000x16 : Shape := ⟨2, ![100000, 16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S6400x16 : Shape := ⟨2, ![6400, 16]⟩

abbrev nBuf : Space → Nat
  | .hbm => 44
  | .vmem => 8
  | .smem => 0
  | _ => 0

abbrev bufTy : (tb : Table) → Fin (tcTables nBuf tb) → BufTy
  | .hbm, ⟨0, _⟩ => ⟨S100000x16, .f32⟩
  | .hbm, ⟨1, _⟩ => ⟨S100000x16, .f32⟩
  | .hbm, ⟨2, _⟩ => ⟨S2x3200000, .i32⟩
  | .hbm, ⟨3, _⟩ => ⟨S1x3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S_, .f32⟩
  | .hbm, ⟨39, _⟩ => ⟨S3200000, .f32⟩
  | .hbm, ⟨40, _⟩ => ⟨S3200000, .f32⟩
  | .hbm, ⟨41, _⟩ => ⟨S3200000x1, .f32⟩
  | .hbm, ⟨42, _⟩ => ⟨S3200000x16, .f32⟩
  | .hbm, ⟨43, _⟩ => ⟨S3200000x16, .f32⟩
  | .local _ .vmem, ⟨0, _⟩ => ⟨S6400x16, .f32⟩
  | .local _ .vmem, ⟨1, _⟩ => ⟨S6400x16, .f32⟩
  | .local _ .vmem, ⟨2, _⟩ => ⟨S6400x16, .f32⟩
  | .local _ .vmem, ⟨3, _⟩ => ⟨S6400x16, .f32⟩
  | .local _ .vmem, ⟨4, _⟩ => ⟨S6400x16, .f32⟩
  | .local _ .vmem, ⟨5, _⟩ => ⟨S6400x16, .f32⟩
  | .local _ .vmem, ⟨6, _⟩ => ⟨S6400x16, .f32⟩
  | .local _ .vmem, ⟨7, _⟩ => ⟨S6400x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x16.size a ≤ S3200000x16.size a
  hwx0_0 : ∀ i : grid0.Coords, EltTy.bits .f32 = 32 ∨ (Rect.block (s := S3200000x16) S6400x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S3200000x16.size a
  hwx0_1 : ∀ i : grid0.Coords, EltTy.bits .f32 = 32 ∨ (Rect.block (s := S3200000x16) S6400x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S3200000x16.size a
  hwx0_2 : ∀ i : grid0.Coords, EltTy.bits .f32 = 32 ∨ (Rect.block (s := S3200000x16) S6400x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x16.size a ≤ S3200000x16.size a
  hwx0_3 : ∀ i : grid0.Coords, EltTy.bits .f32 = 32 ∨ (Rect.block (s := S3200000x16) S6400x16.size (cc0_transform_3 i) (hinb0_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_v12) S6400x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S6400x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩

abbrev nBuf : Space → Nat
  | .hbm => 38
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S100000x16, .f32⟩
  | .hbm, ⟨2, _⟩ => ⟨S2x3200000, .i32⟩
  | .hbm, ⟨3, _⟩ => ⟨S1x3200000, .i32⟩
  | .hbm, ⟨4, _⟩ => ⟨S3200000, .i32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x16, .f32⟩
  | .hbm, ⟨14, _⟩ => ⟨S_, .f32⟩
  | .hbm, ⟨15, _⟩ => ⟨S100000x16, .f32⟩
  | .hbm, ⟨16, _⟩ => ⟨S3200000x1, .i32⟩
  | .hbm, ⟨17, _⟩ => ⟨S100000x16, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S3200000x16, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x16, .f32⟩
  | .hbm, ⟨37, _⟩ => ⟨S3200000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.LibRows.lean ====
/-
  Row gathers and row scatter-adds of a table [N, n] at a column of E row indices, read at an index.

  x[idx] for a table x : [N, n] and idx : [E] lowers to a gather with one collapsed axis (the rows), one
  offset axis (the n columns) and start indices [E, 1]; segment_sum(upd, idx, N) lowers to a scatter with an
  add body over the same dimension numbers. Result row e of the gather is row idx[e] of the table, the index
  read signed and clamped into [0, N - 1]. Over the extended reals the scatter's element (r, f) is the operand's
  plus the sum of the updates (e, f) over the e whose index is r (an index outside [0, N) lands nowhere).

  The last lemma is the one a padded edge list needs: a scatter-add over E' ≥ E updates whose first E rows
  are those of a scatter-add over E updates and whose remaining rows are zero is that smaller scatter-add,
  because a zero update adds nothing wherever it lands.
-/
import Idealize.ShloMosaic.PureOps.Ideal
import Idealize.ShloMosaic.Lib.ValueIdx

noncomputable section

open scoped BigOperators

namespace Cert.Rows

open Idealize.ShloMosaic Idealize.ShloMosaic.ValueIdx

/-- The start-indices index [e, 0] that row e of an [E, n] array reads. -/
abbrev rowIdx {E n : Nat} (y : (⟨2, ![E, n]⟩ : Shape).Idx) : (⟨2, ![E, 1]⟩ : Shape).Idx :=
  fun a => match a with | ⟨0, _⟩ => ⟨(y 0).val, idx2_lt0 y⟩ | ⟨1, _⟩ => ⟨0, Nat.one_pos⟩

section Gather
variable {α : Type}

/-- The dimension numbers of x[idx] for x : [N, n], start indices [E, 1], result [E, n]. -/
abbrev rowGatherDims (N E n : Nat)
    (wf : GatherDims.WF ⟨2, ![N, n]⟩ ⟨2, ![E, 1]⟩ ⟨2, ![E, n]⟩ [1] [0] [] [0] [] 1 ![1, n]) :
    GatherDims ⟨2, ![N, n]⟩ ⟨2, ![E, 1]⟩ ⟨2, ![E, n]⟩ where
  offsetDims := [1]
  collapsedSliceDims := [0]
  operandBatchingDims := []
  startIndicesBatchingDims := []
  startIndexMap := [0]
  indexVectorDim := 1
  sliceSizes := ![1, n]
  wf := wf

/-- THE ROW GATHER READ AT (e, f): the table at row idx[e, 0] (signed, clamped into [0, N - 1]), column f. -/
theorem rowGather_apply {N E n w : Nat} (hN : 0 < N)
    (wf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (y : (⟨2, ![E, n]⟩ : Shape).Idx) :
    Host.gather (rowGatherDims N E n wf) x idx y
      = x (ix2 (⟨min (idx (rowIdx y)).toInt.toNat (N - 1), by omega⟩ : Fin N) (⟨(y 1).val, idx2_lt1 y⟩ : Fin n)) := by
  unfold Host.gather
  congr 1
  funext a
  refine Fin.ext ?_
  match a with
  | ⟨0, _⟩ =>
    show (rowGatherDims N E n wf).start y idx 0 + (rowGatherDims N E n wf).batchCoord y 0 + (rowGatherDims N E n wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E n wf).startIndexMap from List.mem_singleton.mpr rfl)]
    have hsi : (rowGatherDims N E n wf).siIdx y ⟨List.idxOf (0 : Fin 2) (rowGatherDims N E n wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowGatherDims N E n wf).start y idx 1 + (rowGatherDims N E n wf).batchCoord y 1 + (rowGatherDims N E n wf).offCoord y 1 = (y 1).val
    rw [GatherDims.batchCoord_eq_zero _ _ _ List.not_mem_nil]
    have hs : (rowGatherDims N E n wf).start y idx 1 = 0 := by
      unfold GatherDims.start
      rw [dif_neg (show (1 : Fin 2) ∉ ([0] : List (Fin 2)) by decide)]
    rw [hs]
    simp only [Nat.add_zero, Nat.zero_add]
    unfold GatherDims.offCoord
    have h1 : (1 : Fin 2) ∈ (rowGatherDims N E n wf).sKept :=
      (by decide : (1 : Fin 2) ∈ (List.finRange 2).filter (· ∉ ([0] ++ [] : List (Fin 2))))
    rw [dif_pos h1]
    rfl

end Gather

section Scatter

/-- The dimension numbers of segment_sum(upd, idx, N) for upd : [E, n], scatter indices [E, 1], operand [N, n]. -/
abbrev rowScatterDims (N E n : Nat)
    (wf : ScatterDims.WF ⟨2, ![N, n]⟩ ⟨2, ![E, 1]⟩ ⟨2, ![E, n]⟩ [1] [0] [0] 1) :
    ScatterDims ⟨2, ![N, n]⟩ ⟨2, ![E, 1]⟩ ⟨2, ![E, n]⟩ where
  updateWindowDims := [1]
  insertedWindowDims := [0]
  scatterDimsToOperandDims := [0]
  indexVectorDim := 1
  wf := wf

variable {N E n w : Nat} (wf : ScatterDims.WF ⟨2, ![N, n]⟩ ⟨2, ![E, 1]⟩ ⟨2, ![E, n]⟩ [1] [0] [0] 1)

theorem rowScatter_start0 (j : (⟨2, ![E, n]⟩ : Shape).Idx) (idx : IVec ⟨2, ![E, 1]⟩ w) :
    (rowScatterDims N E n wf).start j idx 0 = (idx (rowIdx j)).toInt := by
  unfold ScatterDims.start
  rw [dif_pos (show (0 : Fin 2) ∈ (rowScatterDims N E n wf).scatterDimsToOperandDims from List.mem_singleton.mpr rfl)]
  have hsi : (rowScatterDims N E n wf).siIdx j ⟨List.idxOf (0 : Fin 2) (rowScatterDims N E n wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

theorem rowScatter_start1 (j : (⟨2, ![E, n]⟩ : Shape).Idx) (idx : IVec ⟨2, ![E, 1]⟩ w) :
    (rowScatterDims N E n wf).start j idx 1 = 0 := by
  unfold ScatterDims.start
  rw [dif_neg (show (1 : Fin 2) ∉ ([0] : List (Fin 2)) by decide)]

theorem rowScatter_window0 (j : (⟨2, ![E, n]⟩ : Shape).Idx) :
    (rowScatterDims N E n wf).window j 0 = 0 := by
  unfold ScatterDims.window
  have h0 : (0 : Fin 2) ∉ (rowScatterDims N E n wf).sKept :=
    (by decide : (0 : Fin 2) ∉ (List.finRange 2).filter (· ∉ ([0] : List (Fin 2))))
  rw [dif_neg h0]

theorem rowScatter_window1 (j : (⟨2, ![E, n]⟩ : Shape).Idx) :
    (rowScatterDims N E n wf).window j 1 = (j 1).val := by
  unfold ScatterDims.window
  have h1 : (1 : Fin 2) ∈ (rowScatterDims N E n wf).sKept :=
    (by decide : (1 : Fin 2) ∈ (List.finRange 2).filter (· ∉ ([0] : List (Fin 2))))
  rw [dif_pos h1]
  rfl

/-- WHERE UPDATE (e, f) LANDS: at (r, f') exactly when its index idx[e, 0], read signed, is r and f = f'. -/
theorem rowScatter_resultIdx_iff (j : (⟨2, ![E, n]⟩ : Shape).Idx) (idx : IVec ⟨2, ![E, 1]⟩ w)
    (i : (⟨2, ![N, n]⟩ : Shape).Idx) :
    (rowScatterDims N E n wf).resultIdx? j idx = some i
      ↔ (idx (rowIdx j)).toInt = ((i 0).val : Int) ∧ (j 1).val = (i 1).val := by
  have hi0 : (i 0).val < N := idx2_lt0 i
  have hi1 : (i 1).val < n := idx2_lt1 i
  have hj1 : (j 1).val < n := idx2_lt1 j
  unfold ScatterDims.resultIdx?
  split
  · rename_i h
    rw [Option.some.injEq]
    constructor
    · intro e
      have e0 : ((rowScatterDims N E n wf).start j idx 0 + (rowScatterDims N E n wf).window j 0).toNat = (i 0).val :=
        congrArg (fun g : (⟨2, ![N, n]⟩ : Shape).Idx => (g 0).val) e
      have e1 : ((rowScatterDims N E n wf).start j idx 1 + (rowScatterDims N E n wf).window j 1).toNat = (i 1).val :=
        congrArg (fun g : (⟨2, ![N, n]⟩ : Shape).Idx => (g 1).val) e
      have h0 := (h 0).1
      rw [rowScatter_start0, rowScatter_window0] at e0 h0
      rw [rowScatter_start1, rowScatter_window1] at e1
      constructor
      · omega
      · omega
    · rintro ⟨e0, e1⟩
      funext a
      refine Fin.ext ?_
      match a with
      | ⟨0, _⟩ =>
        show ((rowScatterDims N E n wf).start j idx 0 + (rowScatterDims N E n wf).window j 0).toNat = (i 0).val
        rw [rowScatter_start0, rowScatter_window0]; omega
      | ⟨1, _⟩ =>
        show ((rowScatterDims N E n wf).start j idx 1 + (rowScatterDims N E n wf).window j 1).toNat = (i 1).val
        rw [rowScatter_start1, rowScatter_window1]; omega
  · rename_i h
    constructor
    · intro e; exact absurd e (by simp)
    · rintro ⟨e0, e1⟩
      exfalso; apply h
      intro a
      match a with
      | ⟨0, _⟩ =>
        show 0 ≤ (rowScatterDims N E n wf).start j idx 0 + (rowScatterDims N E n wf).window j 0
          ∧ (rowScatterDims N E n wf).start j idx 0 + (rowScatterDims N E n wf).window j 0 < (N : Int)
        rw [rowScatter_start0, rowScatter_window0]; omega
      | ⟨1, _⟩ =>
        show 0 ≤ (rowScatterDims N E n wf).start j idx 1 + (rowScatterDims N E n wf).window j 1
          ∧ (rowScatterDims N E n wf).start j idx 1 + (rowScatterDims N E n wf).window j 1 < (n : Int)
        rw [rowScatter_start1, rowScatter_window1]; omega

end Scatter

end Cert.Rows

end
-- ==== Proof.LibSegment1.lean ====
/-
  The histogram scatter and the take-gather of a vector [N] at a column of E indices, read at an index.

  segment_sum(v, idx, N) for v : [E] and idx : [E] lowers to a scatter with an add body whose operand is [N],
  whose scatter indices are the column [E, 1] and whose updates have no window axis; table[idx] for table : [N]
  lowers to a gather with the one operand axis collapsed and start indices [E, 1]. Update e lands at position r
  exactly when its index, read signed, is r (an index outside [0, N) lands nowhere); result e of the gather is
  the table at idx[e], read signed and clamped into [0, N - 1].
-/
import Idealize.ShloMosaic.PureOps.Ideal
import Idealize.ShloMosaic.Lib.ValueIdx

noncomputable section

namespace Cert.Segment1

open Idealize.ShloMosaic Idealize.ShloMosaic.ValueIdx

/-- The scatter-indices (or start-indices) index [e, 0] that position e of an [E] vector reads. -/
abbrev colIdx {E : Nat} (j : (⟨1, ![E]⟩ : Shape).Idx) : (⟨2, ![E, 1]⟩ : Shape).Idx :=
  fun a => match a with | ⟨0, _⟩ => ⟨(j 0).val, (j 0).isLt⟩ | ⟨1, _⟩ => ⟨0, Nat.one_pos⟩

section Gather
variable {α : Type}

/-- The dimension numbers of table[idx] for table : [N], start indices [E, 1], result [E]. -/
abbrev takeGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE TAKE READ AT e: the table at idx[e, 0], read signed and clamped into [0, N - 1]. -/
theorem takeGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (takeGatherDims N E wf) x idx y
      = x (ix1 (⟨min (idx (colIdx y)).toInt.toNat (N - 1), by omega⟩ : Fin N)) := by
  unfold Host.gather
  congr 1
  funext a
  obtain rfl : a = 0 := Subsingleton.elim _ _
  refine Fin.ext ?_
  show (takeGatherDims N E wf).start y idx 0 + (takeGatherDims N E wf).batchCoord y 0 + (takeGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGatherDims N E wf).startIndexMap from List.mem_singleton.mpr rfl)]
  have hsi : (takeGatherDims N E wf).siIdx y ⟨List.idxOf (0 : Fin 1) (takeGatherDims N E wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Gather

section Scatter

/-- The dimension numbers of segment_sum(v, idx, N) for v : [E], scatter indices [E, 1], operand [N]. -/
abbrev takeScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem takeScatter_start0 (j : (⟨1, ![E]⟩ : Shape).Idx) (idx : IVec ⟨2, ![E, 1]⟩ w) :
    (takeScatterDims N E wf).start j idx 0 = (idx (colIdx j)).toInt := by
  unfold ScatterDims.start
  rw [dif_pos (show (0 : Fin 1) ∈ (takeScatterDims N E wf).scatterDimsToOperandDims from List.mem_singleton.mpr rfl)]
  have hsi : (takeScatterDims N E wf).siIdx j ⟨List.idxOf (0 : Fin 1) (takeScatterDims N E wf).scatterDimsToOperandDims,
      List.idxOf_lt_length_iff.2 (List.mem_singleton.mpr rfl)⟩ = colIdx j := by
    funext b; refine Fin.ext ?_
    match b with
    | ⟨0, _⟩ => rfl
    | ⟨1, _⟩ => rfl
  rw [hsi]

theorem takeScatter_window0 (j : (⟨1, ![E]⟩ : Shape).Idx) :
    (takeScatterDims N E wf).window j 0 = 0 := by
  unfold ScatterDims.window
  have h0 : (0 : Fin 1) ∉ (takeScatterDims N E wf).sKept :=
    (by decide : (0 : Fin 1) ∉ (List.finRange 1).filter (· ∉ ([0] : List (Fin 1))))
  rw [dif_neg h0]

/-- WHERE UPDATE e LANDS: at position r exactly when its index idx[e, 0], read signed, is r. -/
theorem takeScatter_resultIdx_iff (j : (⟨1, ![E]⟩ : Shape).Idx) (idx : IVec ⟨2, ![E, 1]⟩ w)
    (i : (⟨1, ![N]⟩ : Shape).Idx) :
    (takeScatterDims N E wf).resultIdx? j idx = some i ↔ (idx (colIdx j)).toInt = ((i 0).val : Int) := by
  have hi0 : (i 0).val < N := (i 0).isLt
  unfold ScatterDims.resultIdx?
  split
  · rename_i h
    rw [Option.some.injEq]
    constructor
    · intro e
      have e0 : ((takeScatterDims N E wf).start j idx 0 + (takeScatterDims N E wf).window j 0).toNat = (i 0).val :=
        congrArg (fun g : (⟨1, ![N]⟩ : Shape).Idx => (g 0).val) e
      have h0 := (h 0).1
      rw [takeScatter_start0, takeScatter_window0] at e0 h0
      omega
    · intro e0
      funext a
      refine Fin.ext ?_
      match a with
      | ⟨0, _⟩ =>
        show ((takeScatterDims N E wf).start j idx 0 + (takeScatterDims N E wf).window j 0).toNat = (i 0).val
        rw [takeScatter_start0, takeScatter_window0]; omega
  · rename_i h
    constructor
    · intro e; exact absurd e (by simp)
    · intro e0
      exfalso; apply h
      intro a
      match a with
      | ⟨0, _⟩ =>
        show 0 ≤ (takeScatterDims N E wf).start j idx 0 + (takeScatterDims N E wf).window j 0
          ∧ (takeScatterDims N E wf).start j idx 0 + (takeScatterDims N E wf).window j 0 < (N : Int)
        rw [takeScatter_start0, takeScatter_window0]; omega

end Scatter

end Cert.Segment1

end
-- ==== Proof.Law.lean ====
/-
  The algebra of a segment sum of gathered rows.

  Fix a row r. Every update that lands on row r carries the same real number a (the table's entry at r), so the
  segment sum at r is k copies of a, where k is the number of updates landing there; the histogram at r is k
  copies of 1. Over the reals k·a − a = (k·1 − 1)·a, which is distributivity and needs a to be a real number:
  at an infinite a the left side is undefined-as-bottom while the right is a product.

  A finite sum of reals read in the extended reals is the real sum read there (by induction on the index set),
  and the landing sets of the row scatter [E, n] → [N, n] in column f and of the vector scatter [E] → [N] are in
  bijection (e, f) ↔ e.
-/
import Idealize.ShloMosaic.PureOps.Ideal
import Idealize.ShloMosaic.Lib.ValueIdx

noncomputable section

open scoped BigOperators

namespace Cert.SegmentLaw

open Idealize.ShloMosaic Idealize.ShloMosaic.ValueIdx

/-- A finite sum of reals, each read as an extended real, is the real sum read as an extended real. -/
theorem coe_sum {ι : Type} (S : Finset ι) (f : ι → ℝ) :
    (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A sum of copies of one real over S is |S| times it. -/
theorem sum_const_coe {ι : Type} (S : Finset ι) (a : ℝ) :
    (∑ _i ∈ S, (a : EReal)) = (((S.card : ℝ) * a : ℝ) : EReal) := by
  rw [coe_sum S (fun _ => a), Finset.sum_const, nsmul_eq_mul]

/-- THE LAW: (0 + k·a) − a + b = ((0 + k·1) − 1)·a + b for reals k, a and any extended real b. -/
theorem count_law (k a : ℝ) (b : EReal) :
    (((0 : EReal) + ((k * a : ℝ) : EReal)) - (a : EReal)) + b
      = (((0 : EReal) + ((k * 1 : ℝ) : EReal)) - ((1 : ℝ) : EReal)) * (a : EReal) + b := by
  have h : (k * a - a : ℝ) = (k * 1 - 1) * a := by ring
  rw [zero_add, zero_add, ← EReal.coe_sub, ← EReal.coe_sub, ← EReal.coe_mul, h]

/-- The updates (e, f') of an [E, n] array with P e and f' = f are as many as the e of an [E] vector with P e. -/
theorem card_rows {E n : Nat} (P : Fin E → Prop) [DecidablePred P] (f : Fin n) :
    (Finset.univ.filter (fun j : (⟨2, ![E, n]⟩ : Shape).Idx => P ⟨(j 0).val, idx2_lt0 j⟩ ∧ (j 1).val = f.val)).card
      = (Finset.univ.filter (fun e : (⟨1, ![E]⟩ : Shape).Idx => P ⟨(e 0).val, (e 0).isLt⟩)).card := by
  refine Finset.card_bij' (fun j _ => (ix1 (⟨(j 0).val, idx2_lt0 j⟩ : Fin E)))
    (fun e _ => (ix2 (⟨(e 0).val, (e 0).isLt⟩ : Fin E) f)) ?_ ?_ ?_ ?_
  · intro j hj
    exact Finset.mem_filter.2 ⟨Finset.mem_univ _, (Finset.mem_filter.1 hj).2.1⟩
  · intro e he
    exact Finset.mem_filter.2 ⟨Finset.mem_univ _, (Finset.mem_filter.1 he).2, rfl⟩
  · intro j hj
    have h1 : (j 1).val = f.val := (Finset.mem_filter.1 hj).2.2
    funext a
    refine Fin.ext ?_
    match a with
    | ⟨0, _⟩ => rfl
    | ⟨1, _⟩ => exact h1.symm
  · intro e _
    funext a
    refine Fin.ext ?_
    match a with
    | ⟨0, _⟩ => rfl

end Cert.SegmentLaw

end
-- ==== Proof.Spec.lean ====
/-
  Both programs' results as functions of the arguments, and why they agree.

  Write s[e] for row 0 of edge_index, w[e] for jnp's negative-index wrap of it (s[e] + N when s[e] < 0, else
  s[e]), and row(e) for w[e] read signed and clamped into [0, N - 1]: the row a gather at w reads. A scatter
  lands update e at row r exactly when s[e], read signed and NOT wrapped, is r.

  The reference computes, at (e, f), with r = row(e):
      (0 + Σ { x[row(e'), f] : s[e'] = r }  -  x[r, f])  +  extra[r, f],
  the kernel
      ((0 + Σ { 1 : s[e'] = r })  -  1) · x[r, f]  +  extra[r, f].
  An update that lands on r has a non-negative index, so it is not wrapped and row(e') = r: every term of the
  reference's sum is x[r, f]. With k the number of landing updates both are k·a − a and (k − 1)·a for a = x[r, f],
  equal when a is a real number (Law.lean). Nothing is asked of edge_index: an index outside [0, N) lands nowhere
  in both scatters and is clamped alike by every gather.
-/
import Idealize.ShloMosaic.PureOps.Ideal
import Idealize.ShloMosaic.PureOps.Ideal.Laws
import Idealize.ShloMosaic.Lib.ValueIdx
import Idealize.ShloMosaic.Lib.Pipeline.Value
import proofs.«160120_j2585570312451_1_alg».proof.Proof.LibRows
import proofs.«160120_j2585570312451_1_alg».proof.Proof.LibSegment1
import proofs.«160120_j2585570312451_1_alg».proof.Proof.Law

noncomputable section

open scoped BigOperators

namespace Cert.Segment

open Idealize.ShloMosaic Idealize.ShloMosaic.ValueIdx Cert.Rows Cert.Segment1 Cert.SegmentLaw

/-! ## The shapes, and the facts both programs state of them -/

abbrev SN16 : Shape := ⟨2, ![100000, 16]⟩
abbrev S2E : Shape := ⟨2, ![2, 3200000]⟩
abbrev S1E : Shape := ⟨2, ![1, 3200000]⟩
abbrev SE : Shape := ⟨1, ![3200000]⟩
abbrev S0 : Shape := ⟨0, ![]⟩
abbrev SN : Shape := ⟨1, ![100000]⟩
abbrev SE1 : Shape := ⟨2, ![3200000, 1]⟩
abbrev SE16 : Shape := ⟨2, ![3200000, 16]⟩

/-- The shape relations the operations below take as evidence. -/
structure ShapeFacts : Prop where
  slices : S2E.Slices ![0, 0] S1E
  casts : S1E.ShapeCasts SE
  b0E : S0.BroadcastsInDim SE (![] : Fin 0 → Fin SE.rank)
  b0N : S0.BroadcastsInDim SN (![] : Fin 0 → Fin SN.rank)
  b0N16 : S0.BroadcastsInDim SN16 (![] : Fin 0 → Fin SN16.rank)
  bE1 : SE.BroadcastsInDim SE1 (![0] : Fin 1 → Fin SE1.rank)
  bE16 : SE1.BroadcastsInDim SE16 (![0, 1] : Fin 2 → Fin SE16.rank)
  g2 : GatherDims.WF SN16 SE1 SE16 [1] [0] [] [0] [] 1 ![1, 16]
  g1 : GatherDims.WF SN SE1 SE [] [0] [] [0] [] 1 ![1]
  s2 : ScatterDims.WF SN16 SE1 SE16 [1] [0] [0] 1
  s1 : ScatterDims.WF SN SE1 SE [] [0] [0] 1

/-- They hold: each is decided on the literal shapes. -/
theorem facts : ShapeFacts where
  slices := by decide
  casts := by decide
  b0E := by decide
  b0N := by decide
  b0N16 := by decide
  bE1 := by decide
  bE16 := by decide
  g2 := by decide
  g1 := by decide
  s2 := by decide
  s1 := by decide

variable (h : ShapeFacts)

/-! ## The index columns -/

/-- Row 0 of edge_index, as a vector of E words. -/
def srcVec (x2 : IVec S2E 32) : IVec SE 32 :=
  shapeCast SE (extractStridedSlice S1E ![0, 0] x2 h.slices) h.casts

/-- jnp's wrap of a negative index: s + N when s < 0 (signed), else s. -/
def wrapWord (s : BitVec 32) : BitVec 32 :=
  Scalar.select (IntOp.cmpi .slt s 0#32) (IntOp.addi s 100000#32) s

/-- The wrap, on the whole vector, as the programs spell it. -/
def wrapVec (S1 : IVec SE 32) : IVec SE 32 :=
  select (cmpi .slt S1 (broadcastInDim SE ![] h.b0E (constantI S0 32 0#32)))
    (addi S1 (broadcastInDim SE ![] h.b0E (constantI S0 32 100000#32))) S1

/-- The wrapped indices as the [E, 1] column every gather starts from. -/
def wrapCol (S1 : IVec SE 32) : IVec SE1 32 := broadcastInDim SE1 ![0] h.bE1 (wrapVec h S1)

/-- The unwrapped indices as the [E, 1] column both scatters index by. -/
def srcCol (S1 : IVec SE 32) : IVec SE1 32 := broadcastInDim SE1 ![0] h.bE1 S1

/-- The row a gather at the wrapped index reads: signed, clamped into [0, N - 1]. -/
def rowOf (s : BitVec 32) : Fin 100000 := ⟨min (wrapWord s).toInt.toNat (100000 - 1), by omega⟩

theorem wrapVec_at (S1 : IVec SE 32) (k : SE.Idx) : wrapVec h S1 k = wrapWord (S1 k) := by
  unfold wrapVec wrapWord
  show Scalar.select (IntOp.cmpi .slt (S1 k) (broadcastInDim SE ![] h.b0E (constantI S0 32 0#32) k))
      (IntOp.addi (S1 k) (broadcastInDim SE ![] h.b0E (constantI S0 32 100000#32) k)) (S1 k) = _
  rw [broadcastInDim_apply _ h.b0E (constantI S0 32 0#32) k ix0 (fun a => a.elim0),
    broadcastInDim_apply _ h.b0E (constantI S0 32 100000#32) k ix0 (fun a => a.elim0)]
  rfl

/-- A vector as an [E, 1] column reads, at [e, ·], the vector at e. -/
theorem col_at {α : Type} (v : SE.Idx → α) (k : SE1.Idx) :
    broadcastInDim SE1 ![0] h.bE1 v k = v (ix1 (⟨(k 0).val, idx2_lt0 k⟩ : Fin 3200000)) :=
  broadcastInDim_apply _ h.bE1 v k (ix1 (⟨(k 0).val, idx2_lt0 k⟩ : Fin 3200000)) (fun a => match a with
    | ⟨0, _⟩ => by show (k 0).val = if (3200000 : Nat) = 1 then 0 else (k 0).val; rw [if_neg (by decide)])

theorem wrapCol_at (S1 : IVec SE 32) (k : SE1.Idx) :
    wrapCol h S1 k = wrapWord (S1 (ix1 (⟨(k 0).val, idx2_lt0 k⟩ : Fin 3200000))) := by
  unfold wrapCol
  rw [col_at h, wrapVec_at h]

theorem srcCol_at (S1 : IVec SE 32) (k : SE1.Idx) :
    srcCol h S1 k = S1 (ix1 (⟨(k 0).val, idx2_lt0 k⟩ : Fin 3200000)) := by
  unfold srcCol
  rw [col_at h]

/-- An update that lands on row r is not wrapped and not clamped: the gather at its wrapped index reads row r. -/
theorem rowOf_of_lands (s : BitVec 32) (r : Fin 100000) (hs : s.toInt = (r.val : Int)) : rowOf s = r := by
  have hr := r.isLt
  have hslt : s.slt 0#32 = false := by
    rw [BitVec.slt, hs]
    simp
  have hw : wrapWord s = s := by
    unfold wrapWord IntOp.cmpi
    rw [hslt]
    exact select_zero _ _
  apply Fin.ext
  show min (wrapWord s).toInt.toNat (100000 - 1) = r.val
  rw [hw, hs]
  omega

/-! ## The constants -/

theorem ofBits_one : Ideal.ofBits .f32 0x3F800000#32 = ((1 : ℝ) : EReal) := by
  simp [Ideal.ofBits, Ideal.ieee, -EReal.coe_mul]; norm_num

def zerosN16 : FVec Ideal SN16 .f32 := broadcastInDim SN16 ![] h.b0N16 (constant (F := Ideal) S0 .f32 0x00000000#32)
def zerosN : FVec Ideal SN .f32 := broadcastInDim SN ![] h.b0N (constant (F := Ideal) S0 .f32 0x00000000#32)
def onesE : FVec Ideal SE .f32 := broadcastInDim SE ![] h.b0E (constant (F := Ideal) S0 .f32 0x3F800000#32)

theorem zerosN16_at (i : SN16.Idx) : zerosN16 h i = (0 : EReal) := by
  unfold zerosN16
  rw [broadcastInDim_apply _ h.b0N16 (constant (F := Ideal) S0 .f32 0x00000000#32) i ix0 (fun a => a.elim0)]
  exact Ideal.ofBits_zero_f32

theorem zerosN_at (i : SN.Idx) : zerosN h i = (0 : EReal) := by
  unfold zerosN
  rw [broadcastInDim_apply _ h.b0N (constant (F := Ideal) S0 .f32 0x00000000#32) i ix0 (fun a => a.elim0)]
  exact Ideal.ofBits_zero_f32

theorem onesE_at (i : SE.Idx) : onesE h i = ((1 : ℝ) : EReal) := by
  unfold onesE
  rw [broadcastInDim_apply _ h.b0E (constant (F := Ideal) S0 .f32 0x3F800000#32) i ix0 (fun a => a.elim0)]
  exact ofBits_one

/-! ## The dimension numbers, and the gathers and scatters read at an index -/

abbrev gd2 := rowGatherDims 100000 3200000 16 h.g2
abbrev gd1 := takeGatherDims 100000 3200000 h.g1
abbrev sd2 := rowScatterDims 100000 3200000 16 h.s2
abbrev sd1 := takeScatterDims 100000 3200000 h.s1

abbrev eOf (y : SE16.Idx) : Fin 3200000 := ⟨(y 0).val, idx2_lt0 y⟩
abbrev fOf (y : SE16.Idx) : Fin 16 := ⟨(y 1).val, idx2_lt1 y⟩

/-- The row gather at the wrapped column reads row(e), column f. -/
theorem gather2_at {α : Type} (X : SN16.Idx → α) (S1 : IVec SE 32) (y : SE16.Idx) :
    Host.gather (gd2 h) X (wrapCol h S1) y = X (ix2 (rowOf (S1 (ix1 (eOf y)))) (fOf y)) := by
  refine (rowGather_apply (by omega) h.g2 X (wrapCol h S1) y).trans (congrArg X ?_)
  funext a
  refine Fin.ext ?_
  match a with
  | ⟨0, _⟩ =>
    show min ((wrapCol h S1) (rowIdx y)).toInt.toNat (100000 - 1) = min (wrapWord (S1 (ix1 (eOf y)))).toInt.toNat (100000 - 1)
    rw [wrapCol_at h]
  | ⟨1, _⟩ => rfl

/-- The take at the wrapped column reads position row(e). -/
theorem gather1_at {α : Type} (v : SN.Idx → α) (S1 : IVec SE 32) (e : Fin 3200000) :
    Host.gather (gd1 h) v (wrapCol h S1) (ix1 e) = v (ix1 (rowOf (S1 (ix1 e)))) := by
  refine (takeGather_apply (by omega) h.g1 v (wrapCol h S1) (ix1 e)).trans (congrArg v ?_)
  funext a
  refine Fin.ext ?_
  match a with
  | ⟨0, _⟩ =>
    show min ((wrapCol h S1) (colIdx (ix1 e))).toInt.toNat (100000 - 1) = min (wrapWord (S1 (ix1 e))).toInt.toNat (100000 - 1)
    rw [wrapCol_at h]

/-- Update e' lands on row r: its index, read signed and not wrapped, is r. -/
abbrev lands (S1 : IVec SE 32) (r : Fin 100000) (e' : Fin 3200000) : Prop := (S1 (ix1 e')).toInt = (r.val : Int)

/-- The updates (e', f') that the row scatter lands on (r, f). -/
abbrev landed2 (S1 : IVec SE 32) (r : Fin 100000) (f : Fin 16) : Finset SE16.Idx :=
  Finset.univ.filter (fun j : SE16.Idx => lands S1 r ⟨(j 0).val, idx2_lt0 j⟩ ∧ (j 1).val = f.val)

/-- The updates e' that the vector scatter lands on r. -/
abbrev landed1 (S1 : IVec SE 32) (r : Fin 100000) : Finset SE.Idx :=
  Finset.univ.filter (fun j : SE.Idx => lands S1 r ⟨(j 0).val, (j 0).isLt⟩)

/-- As many updates land on (r, f) as on r. -/
theorem card_landed (S1 : IVec SE 32) (r : Fin 100000) (f : Fin 16) : (landed2 S1 r f).card = (landed1 S1 r).card :=
  card_rows (lands S1 r) f

theorem scatter2_at (Z : FVec Ideal SN16 .f32) (U : FVec Ideal SE16 .f32) (S1 : IVec SE 32) (r : Fin 100000) (f : Fin 16) :
    Host.scatterAdd (F := Ideal) (sd2 h) Z (srcCol h S1) U (ix2 r f) = Z (ix2 r f) + ∑ j ∈ landed2 S1 r f, U j := by
  show Ideal.hostScatterAdd (sd2 h) Z (srcCol h S1) U (ix2 r f) = _
  unfold Ideal.hostScatterAdd
  refine congrArg (Z (ix2 r f) + ·) ?_
  refine Finset.sum_congr (Finset.filter_congr fun j _ => ?_) (fun _ _ => rfl)
  rw [rowScatter_resultIdx_iff h.s2 j (srcCol h S1) (ix2 r f), srcCol_at h]

theorem scatter1_at (Z : FVec Ideal SN .f32) (U : FVec Ideal SE .f32) (S1 : IVec SE 32) (r : Fin 100000) :
    Host.scatterAdd (F := Ideal) (sd1 h) Z (srcCol h S1) U (ix1 r) = Z (ix1 r) + ∑ j ∈ landed1 S1 r, U j := by
  show Ideal.hostScatterAdd (sd1 h) Z (srcCol h S1) U (ix1 r) = _
  unfold Ideal.hostScatterAdd
  refine congrArg (Z (ix1 r) + ·) ?_
  refine Finset.sum_congr (Finset.filter_congr fun j _ => ?_) (fun _ _ => rfl)
  rw [takeScatter_resultIdx_iff h.s1 j (srcCol h S1) (ix1 r), srcCol_at h]

/-! ## The two results -/

/-- x gathered at the wrapped column: the message rows. -/
def msg (x : FVec Ideal SN16 .f32) (S1 : IVec SE 32) : FVec Ideal SE16 .f32 := Host.gather (gd2 h) x (wrapCol h S1)

/-- The reference: the segment sum of the messages, re-gathered, less the own message, plus extra's row. -/
def refOut (x extra : FVec Ideal SN16 .f32) (S1 : IVec SE 32) : FVec Ideal SE16 .f32 :=
  addf (subf (Host.gather (gd2 h) (Host.scatterAdd (sd2 h) (zerosN16 h) (srcCol h S1) (msg h x S1)) (wrapCol h S1)) (msg h x S1))
    (Host.gather (gd2 h) extra (wrapCol h S1))

/-- The histogram of the indices: how many updates land on each row. -/
def counts (S1 : IVec SE 32) : FVec Ideal SN .f32 := Host.scatterAdd (sd1 h) (zerosN h) (srcCol h S1) (onesE h)

/-- The kernel's coefficient: the count at row(e) less one, laid along the features. -/
def coef (S1 : IVec SE 32) : FVec Ideal SE16 .f32 :=
  broadcastInDim SE16 ![0, 1] h.bE16 (broadcastInDim SE1 ![0] h.bE1
    (subf (Host.gather (gd1 h) (counts h S1) (wrapCol h S1)) (onesE h)))

/-- The kernel: coefficient times message plus extra's row. -/
def kerOut (x extra : FVec Ideal SN16 .f32) (S1 : IVec SE 32) : FVec Ideal SE16 .f32 :=
  addf (mulf (coef h S1) (msg h x S1)) (Host.gather (gd2 h) extra (wrapCol h S1))

/-- A vector laid along the features of an [E, 16] array reads, at (e, f), the vector at e. -/
theorem rows_at {α : Type} (v : SE.Idx → α) (y : SE16.Idx) :
    broadcastInDim SE16 ![0, 1] h.bE16 (broadcastInDim SE1 ![0] h.bE1 v) y = v (ix1 (eOf y)) :=
  (broadcastInDim_apply _ h.bE16 (broadcastInDim SE1 ![0] h.bE1 v) y (rowIdx y) (fun a => match a with
    | ⟨0, _⟩ => by show (y 0).val = if (3200000 : Nat) = 1 then 0 else (y 0).val; rw [if_neg (by decide)]
    | ⟨1, _⟩ => by show (0 : Nat) = if (1 : Nat) = 1 then 0 else (y 1).val; rw [if_pos rfl])).trans
    (col_at h v (rowIdx y))

theorem coef_at (S1 : IVec SE 32) (y : SE16.Idx) :
    coef h S1 y = counts h S1 (ix1 (rowOf (S1 (ix1 (eOf y))))) - ((1 : ℝ) : EReal) := by
  unfold coef
  rw [rows_at h, subf_apply, gather1_at h, onesE_at h]

theorem kerOut_at (x extra : FVec Ideal SN16 .f32) (S1 : IVec SE 32) (y : SE16.Idx) :
    kerOut h x extra S1 y = coef h S1 y * msg h x S1 y + Host.gather (gd2 h) extra (wrapCol h S1) y := by
  unfold kerOut
  rw [addf_apply, mulf_apply]

theorem refOut_at (x extra : FVec Ideal SN16 .f32) (S1 : IVec SE 32) (y : SE16.Idx) :
    refOut h x extra S1 y
      = (Host.gather (gd2 h) (Host.scatterAdd (F := Ideal) (sd2 h) (zerosN16 h) (srcCol h S1) (msg h x S1)) (wrapCol h S1) y - msg h x S1 y)
        + Host.gather (gd2 h) extra (wrapCol h S1) y := by
  unfold refOut
  rw [addf_apply, subf_apply]

/-- THE AGREEMENT, where x holds real numbers. -/
theorem kerOut_eq_refOut (x extra : FVec Ideal SN16 .f32) (S1 : IVec SE 32)
    (hx : ∀ i, ∃ a : ℝ, x i = (a : EReal)) : kerOut h x extra S1 = refOut h x extra S1 := by
  funext y
  obtain ⟨a, ha⟩ := hx (ix2 (rowOf (S1 (ix1 (eOf y)))) (fOf y))
  -- every landing update carries x[r, f]
  have hterm : ∀ j ∈ landed2 S1 (rowOf (S1 (ix1 (eOf y)))) (fOf y), msg h x S1 j = (a : EReal) := by
    intro j hj
    obtain ⟨hj0, hj1⟩ := (Finset.mem_filter.1 hj).2
    unfold msg
    rw [gather2_at h, rowOf_of_lands _ _ hj0, ← ha]
    exact congrArg x (congrArg (ix2 _) (Fin.ext hj1))
  have hagg : Host.scatterAdd (F := Ideal) (sd2 h) (zerosN16 h) (srcCol h S1) (msg h x S1) (ix2 (rowOf (S1 (ix1 (eOf y)))) (fOf y))
      = (0 : EReal) + ((((landed1 S1 (rowOf (S1 (ix1 (eOf y))))).card : ℝ) * a : ℝ) : EReal) := by
    rw [scatter2_at h, zerosN16_at h, Finset.sum_congr rfl hterm, sum_const_coe, card_landed]
  have hcnt : counts h S1 (ix1 (rowOf (S1 (ix1 (eOf y)))))
      = (0 : EReal) + ((((landed1 S1 (rowOf (S1 (ix1 (eOf y))))).card : ℝ) * 1 : ℝ) : EReal) := by
    unfold counts
    rw [scatter1_at h, zerosN_at h, Finset.sum_congr rfl (fun j _ => onesE_at h j), sum_const_coe]
  have hmsg : msg h x S1 y = (a : EReal) := by unfold msg; rw [gather2_at h, ha]
  rw [kerOut_at h, refOut_at h, coef_at h, hcnt,
    gather2_at h (Host.scatterAdd (F := Ideal) (sd2 h) (zerosN16 h) (srcCol h S1) (msg h x S1)) S1 y, hagg, hmsg]
  exact (count_law _ a _).symm

end Cert.Segment

end
-- ==== Proof.KernelValue.lean ====
/-
  The kernel's result array as one function of the arguments.

  The pallas_call tiles the edge axis: grid point t stages rows [6400·t, 6400·t + 6400) of three [E, 16]
  arrays — the message rows, extra's rows and the coefficient — and writes the same rows of the result,
  each entry coefficient · message + extra. The 500 blocks tile the result, so the result array is that
  expression of the three arrays index by index. The three arrays are what @main's host operations leave
  before the region: the gathers of x and extra at the wrapped indices, and the histogram's count less one
  laid along the features — the specification's terms.
-/
import proofs.«160120_j2585570312451_1_alg».proof.Proof.Gen.KernelIdeal.Value
import proofs.«160120_j2585570312451_1_alg».proof.Proof.Spec
import Idealize.ShloMosaic.Lib.StableHlo.Run

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)
open Cert.Segment (facts)

variable (m : (ℓ : Loc nD τ sig) → Buf (Elt Ideal) ℓ) (ρ : Dev nD → PrngReg)

/-- The arguments, as the specification's arrays: x, extra, and row 0 of edge_index. -/
abbrev xArr (c : Dev nD) : FVec Ideal Cert.Segment.SN16 .f32 := m ((c : Thread nD τ).loc main_arg0)
abbrev extraArr (c : Dev nD) : FVec Ideal Cert.Segment.SN16 .f32 := m ((c : Thread nD τ).loc main_arg1)
abbrev srcArr (c : Dev nD) : IVec Cert.Segment.SE 32 := Cert.Segment.srcVec facts (m ((c : Thread nD τ).loc main_arg2))

/-- The result the kernel leaves: the specification's kernel form of the arguments. -/
abbrev result (c : Dev nD) : FVec Ideal Cert.Segment.SE16 .f32 :=
  Cert.Segment.kerOut facts (xArr m c) (extraArr m c) (srcArr m c)

/-! ## The three staged arrays as the region finds them -/

/-- Window 0's array holds the message rows: x gathered at the wrapped indices. -/
theorem V_msg (c : Dev nD) :
    (V m c main_v12 : S3200000x16.Idx → EReal) = Cert.Segment.msg facts (xArr m c) (srcArr m c) := by
  dsimp only [Gen.V, Gen.hostOps0]; after_results_simp <;> rfl

/-- Window 1's array holds extra gathered at the wrapped indices. -/
theorem V_extra (c : Dev nD) :
    (V m c main_v19 : S3200000x16.Idx → EReal)
      = Host.gather (Cert.Segment.gd2 facts) (extraArr m c) (Cert.Segment.wrapCol facts (srcArr m c)) := by
  dsimp only [Gen.V, Gen.hostOps0]; after_results_simp <;> rfl

/-- Window 2's array holds the coefficient: the histogram's count at the gathered row, less one, along the features. -/
theorem V_coef (c : Dev nD) :
    (V m c main_v30 : S3200000x16.Idx → EReal) = Cert.Segment.coef facts (srcArr m c) := by
  dsimp only [Gen.V, Gen.hostOps0]; after_results_simp <;> rfl

/-- The same three, at the windows' own references (window w stages the array of spec0 w). -/
theorem W0_eq (c : Dev nD) :
    (V m c (Pipeline.arrRef spec0 0) : S3200000x16.Idx → EReal) = Cert.Segment.msg facts (xArr m c) (srcArr m c) := V_msg m c
theorem W1_eq (c : Dev nD) :
    (V m c (Pipeline.arrRef spec0 1) : S3200000x16.Idx → EReal)
      = Host.gather (Cert.Segment.gd2 facts) (extraArr m c) (Cert.Segment.wrapCol facts (srcArr m c)) := V_extra m c
theorem W2_eq (c : Dev nD) :
    (V m c (Pipeline.arrRef spec0 2) : S3200000x16.Idx → EReal) = Cert.Segment.coef facts (srcArr m c) := V_coef m c

/-- If three arrays are the messages, extra's rows and the coefficient, the result is coefficient · message + extra. -/
theorem result_of (A0 A1 A2 : S3200000x16.Idx → EReal) (X Xe : FVec Ideal Cert.Segment.SN16 .f32) (S : IVec Cert.Segment.SE 32)
    (e0 : A0 = Cert.Segment.msg facts X S)
    (e1 : A1 = Host.gather (Cert.Segment.gd2 facts) Xe (Cert.Segment.wrapCol facts S))
    (e2 : A2 = Cert.Segment.coef facts S) (i : S3200000x16.Idx) :
    Cert.Segment.kerOut facts X Xe S i = A2 i * A0 i + A1 i := by
  subst e0 e1 e2
  exact Cert.Segment.kerOut_at facts X Xe S i

/-! ## One block -/

theorem origin : (![0, 0] : Fin 2 → Nat) = fun _ => 0 := funext fun a => by fin_cases a <;> rfl

theorem ix3_0_self (y : S6400x16.Idx) : Value.ix3_0 y = y :=
  funext fun a => by match a with | ⟨0, _⟩ => rfl | ⟨1, _⟩ => rfl
theorem ix3_1_self (y : S6400x16.Idx) : Value.ix3_1 y = y :=
  funext fun a => by match a with | ⟨0, _⟩ => rfl | ⟨1, _⟩ => rfl
theorem ix3_2_self (y : S6400x16.Idx) : Value.ix3_2 y = y :=
  funext fun a => by match a with | ⟨0, _⟩ => rfl | ⟨1, _⟩ => rfl

/-- What the body leaves in the output block, entry by entry: the third operand's block (the coefficient) times
    the first's (the message) plus the second's (extra). -/
theorem out_at (x0 x1 x2 : S6400x16.Idx → EReal) (j : S6400x16.Idx) :
    out0_3 (F := Ideal) x0 x1 x2 j = x2 j * x0 j + x1 j := by
  unfold out0_3
  rw [Value.canon3_eq (F := Ideal) (View.ld x2 r0_0) (View.ld x0 r0_0) (View.ld x1 r0_0) j]
  simp only [View.ld_unit_zero (S := S6400x16) origin]
  show x2 (Value.ix3_0 j) * x0 (Value.ix3_1 j) + x1 (Value.ix3_2 j) = _
  rw [ix3_0_self, ix3_1_self, ix3_2_self]

/-! ## From the blocks to the array -/

/-- Every window's block index at point t is (t, 0): the four windows move together down the edge axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- BLOCK t, for any three staged arrays A0, A1, A2 and any G that is A2 · A0 + A1 index by index: what the body
    leaves from the three input blocks at point t is block t of G. The four windows sit on the same rows. -/
theorem block_eq (A0 A1 A2 G : S3200000x16.Idx → EReal) (hG : ∀ i, G i = A2 i * A0 i + A1 i) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) G := by
  obtain ⟨a0, a1, b0, b1, c0, c1, d0, d1⟩ := idx_facts t
  funext j
  show out0_3 (F := Ideal) (((cfg0.win 0).blk t).view.read (Elt Ideal) A0) (((cfg0.win 1).blk t).view.read (Elt Ideal) A1)
      (((cfg0.win 2).blk t).view.read (Elt Ideal) A2) j = G (((cfg0.win 3).blk t).view.emb j)
  refine (out_at _ _ _ j).trans ?_
  rw [hG]
  show A2 (((cfg0.win 2).blk t).view.emb j) * A0 (((cfg0.win 0).blk t).view.emb j) + A1 (((cfg0.win 1).blk t).view.emb j)
    = A2 (((cfg0.win 3).blk t).view.emb j) * A0 (((cfg0.win 3).blk t).view.emb j) + A1 (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 6400 + 1 * (j 0).val = win0_3.index t (0 : Fin 2) * 6400 + 1 * (j 0).val; omega
    | ⟨1, _⟩ => show win0_0.index t (1 : Fin 2) * 16 + 1 * (j 1).val = win0_3.index t (1 : Fin 2) * 16 + 1 * (j 1).val; omega
  have h1 : ((cfg0.win 1).blk t).view.emb j = ((cfg0.win 3).blk t).view.emb j := by
    funext a; apply Fin.ext
    match a with
    | ⟨0, _⟩ => show win0_1.index t (0 : Fin 2) * 6400 + 1 * (j 0).val = win0_3.index t (0 : Fin 2) * 6400 + 1 * (j 0).val; omega
    | ⟨1, _⟩ => show win0_1.index t (1 : Fin 2) * 16 + 1 * (j 1).val = win0_3.index t (1 : Fin 2) * 16 + 1 * (j 1).val; omega
  have h2 : ((cfg0.win 2).blk t).view.emb j = ((cfg0.win 3).blk t).view.emb j := by
    funext a; apply Fin.ext
    match a with
    | ⟨0, _⟩ => show win0_2.index t (0 : Fin 2) * 6400 + 1 * (j 0).val = win0_3.index t (0 : Fin 2) * 6400 + 1 * (j 0).val; omega
    | ⟨1, _⟩ => show win0_2.index t (1 : Fin 2) * 16 + 1 * (j 1).val = win0_3.index t (1 : Fin 2) * 16 + 1 * (j 1).val; omega
  rw [h0, h1, h2]

/-- WHAT POINT t WRITES BACK is block t of the result: the block lemma at the three arrays the region finds. -/
theorem flushed_eq (c : Dev nD) (t : Fin cfg0.N) :
    (dats m 0 c).flushed 3 t = ((cfg0.win 3).blk t).view.read (Elt Ideal) (result m c) := by
  rw [Value.flushed3]
  unfold iblk
  exact block_eq _ _ _ (result m c)
    (result_of _ _ _ (xArr m c) (extraArr m c) (srcArr m c) (W0_eq m c) (W1_eq m c) (W2_eq m c)) t

/-- An index of the result is in point t's block iff each coordinate is in the block's range on its axis. -/
theorem mem_blk (t : Fin cfg0.N) (i : S3200000x16.Idx) :
    i ∈ ((cfg0.win 3).blk t).view.set ↔ ∀ a : Fin 2, win0_3.index t a * S6400x16.size a ≤ (i a).val ∧ (i a).val < win0_3.index t a * S6400x16.size a + S6400x16.size a := by
  show i ∈ ((View.whole main_v31).slice (win0_3.rect t)).set ↔ _
  rw [View.set_slice_whole, Rect.mem_set_unit]
  exact Iff.rfl

/-- THE COVER: row e of the result lies in the block of point e / 6400. -/
theorem cover (i : S3200000x16.Idx) :
    ∃ t : Fin cfg0.N, (cfg0.win 3).flush t = true ∧ i ∈ ((cfg0.win 3).blk t).view.set := by
  have hi0 : (i 0).val < 3200000 := (i 0).isLt
  have hi1 : (i 1).val < 16 := (i 1).isLt
  have hlt : (i 0).val / 6400 < cfg0.N := by
    show (i 0).val / 6400 < grid0.N
    rw [N_0]; omega
  obtain ⟨-, -, -, -, -, -, d0, d1⟩ := idx_facts ⟨(i 0).val / 6400, hlt⟩
  refine ⟨⟨(i 0).val / 6400, hlt⟩, flush0_3 _, ?_⟩
  rw [mem_blk]
  intro a
  match a with
  | ⟨0, _⟩ =>
    show win0_3.index ⟨(i 0).val / 6400, hlt⟩ (0 : Fin 2) * 6400 ≤ (i 0).val ∧ (i 0).val < win0_3.index ⟨(i 0).val / 6400, hlt⟩ (0 : Fin 2) * 6400 + 6400
    rw [d0]; show (i 0).val / 6400 * 6400 ≤ (i 0).val ∧ (i 0).val < (i 0).val / 6400 * 6400 + 6400; omega
  | ⟨1, _⟩ =>
    show win0_3.index ⟨(i 0).val / 6400, hlt⟩ (1 : Fin 2) * 16 ≤ (i 1).val ∧ (i 1).val < win0_3.index ⟨(i 0).val / 6400, hlt⟩ (1 : Fin 2) * 16 + 16
    rw [d1]; omega

/-- THE RESULT ARRAY after the run. -/
theorem final (c : Dev nD) : (dats m 0 c).arrAt 3 cfg0.N = result m c :=
  (dats m 0 c).arrAt_eq_of_cover 3 (result m c) (fun t _ => flushed_eq m c t) cover

/-- The kernel's run, re-posted: the result array at the specification's kernel form, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Combine

end
-- ==== Proof.RefValue.lean ====
/-
  The reference's result is the specification's reference form of the arguments.

  Its operations, stage by stage, are the specification's terms: row 0 of edge_index as a vector, its wrap as the
  column each of the three gathers starts from, the unwrapped column the scatter indexes by, the message rows,
  their segment sum, and the final subtraction and addition. Each stage is the same expression up to the names of
  the shapes and of the shape facts, so each equation holds by unfolding; they are chained so that no two long
  terms are ever compared whole.
-/
import proofs.«160120_j2585570312451_1_alg».proof.Proof.Gen.ReferenceIdeal.Read
import proofs.«160120_j2585570312451_1_alg».proof.Proof.Spec

noncomputable section

namespace Cert.ReferenceIdeal.RefValue

open Cert.ReferenceIdeal Cert.ReferenceIdeal.Gen Cert.ReferenceIdeal.Read Idealize.ShloMosaic
open Cert.Segment (facts srcVec wrapCol srcCol msg zerosN16 gd2 sd2 refOut)

variable (x0 x1 : (⟨S100000x16, .f32⟩ : BufTy).Contents (Elt Ideal)) (x2 : (⟨S2x3200000, .i32⟩ : BufTy).Contents (Elt Ideal))

theorem src_eq : val_main_v1 (F := Ideal) x2 = srcVec facts x2 := rfl

theorem wrap7_eq : val_main_v7 (F := Ideal) x2 = wrapCol facts (srcVec facts x2) := rfl
theorem wrap17_eq : val_main_v17 (F := Ideal) x2 = wrapCol facts (srcVec facts x2) := rfl
theorem wrap25_eq : val_main_v25 (F := Ideal) x2 = wrapCol facts (srcVec facts x2) := rfl

theorem col10_eq : val_main_v10 (F := Ideal) x2 = srcCol facts (srcVec facts x2) := rfl

theorem zeros_eq : val_main_v9 (F := Ideal) = zerosN16 facts := rfl

theorem gdims_eq : gather_S100000x16_S3200000x1_S3200000x16_1_0_n_n_0_1_116 = gd2 facts := rfl
theorem sdims_eq : scatter_S100000x16_S3200000x1_S3200000x16_1_0_0_1 = sd2 facts := rfl

/-- The gathered rows of x are the messages. -/
theorem msg_eq : val_main_v8 (F := Ideal) x0 x2 = msg facts x0 (srcVec facts x2) := by
  unfold val_main_v8 msg
  rw [wrap7_eq, gdims_eq]

/-- THE REFERENCE'S RESULT is the specification's reference form. -/
theorem ref_eq : val_main_v27 (F := Ideal) x0 x1 x2 = refOut facts x0 x1 (srcVec facts x2) := by
  unfold val_main_v27 val_main_v19 val_main_v18 val_main_v26 val_main_v11 refOut
  rw [msg_eq, wrap17_eq, wrap25_eq, col10_eq, zeros_eq, gdims_eq, sdims_eq]

end Cert.ReferenceIdeal.RefValue

end
-- ==== Proof.Finite.lean ====
/-
  What the precondition says of x.

  finite_inputs is all(|x| < +inf) and all(|extra| < +inf): a reduction by `and` of the comparison's bits that came
  out 1 met a 1 at every index, and |a| < +inf on the extended reals leaves a neither +inf nor -inf: a real number.
-/
import proofs.«160120_j2585570312451_1_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Pre_finite_inputs

/-- An extended real whose absolute value is below +inf is a real number. -/
theorem real_of_abs_lt_top (x : EReal) (hlt : max x (-x) < ⊤) : ∃ a : ℝ, x = (a : EReal) := by
  induction x using EReal.rec with
  | bot => simp at hlt
  | coe a => exact ⟨a, rfl⟩
  | top => simp at hlt

/-- The pattern 0x7F800000 is +inf. -/
theorem ofBits_inf : Ideal.ofBits .f32 0x7F800000#32 = (⊤ : EReal) := by
  simp [Ideal.ofBits, Ideal.ieee]

instance : Subsingleton S_.Idx := ⟨fun a b => funext fun d => d.elim0⟩

/-- Under finite_inputs every entry of the first argument is a real number. -/
theorem x_real [Facts] (x extra : FVec Ideal S100000x16 .f32) (idx : IVec S2x3200000 32)
    (hpre : fn (F := Ideal) x extra idx = fun _ => 1#1) (i : S100000x16.Idx) : ∃ a : ℝ, x i = (a : EReal) := by
  have h0 := congrFun hpre ix0
  dsimp only [fn] at h0
  obtain ⟨h1, -⟩ := IntOp.andi_eq_one.1 h0
  have h2 := Host.reduce_andi_all _ _ _ _ ix0 h1 i
  have h3 : Ideal.cmp .olt (max (x i) (-(x i)))
      (broadcastInDim S100000x16 ![] Facts.bcast_S_S100000x16 (constant (F := Ideal) S_ .f32 0x7F800000#32) i) = 1#1 := h2
  rw [broadcastInDim_apply _ Facts.bcast_S_S100000x16 (constant (F := Ideal) S_ .f32 0x7F800000#32) i ix0 (fun a => a.elim0)] at h3
  have h4 : Ideal.cmp .olt (max (x i) (-(x i))) (Ideal.ofBits .f32 0x7F800000#32) = 1#1 := h3
  rw [ofBits_inf] at h4
  have h5 : decide (max (x i) (-(x i)) < (⊤ : EReal)) = true := by
    cases hb : decide (max (x i) (-(x i)) < (⊤ : EReal))
    · exfalso
      have : Ideal.cmp .olt (max (x i) (-(x i))) (⊤ : EReal) = 0#1 := by
        show BitVec.ofBool (decide (max (x i) (-(x i)) < (⊤ : EReal))) = 0#1
        rw [hb]; rfl
      rw [this] at h4
      exact absurd h4 (by decide)
    · rfl
  exact real_of_abs_lt_top _ (of_decide_eq_true h5)

end Cert.Finite

end
-- ==== Proof.lean ====
/-
  The certificate of the edge-combine kernel against its message-passing reference.

  Both programs gather rows of x and extra at row 0 of edge_index (negative indices wrapped by N, then clamped).
  The reference segment-sums the gathered rows of x by the same indices, gathers the sums back, subtracts each
  edge's own row and adds extra's row. The kernel builds the histogram of the indices instead, and its Pallas
  stage computes (count - 1) · row + extra's row on 500 tiles of 6400 edges. A segment's sum is its count times
  its row, since every edge of a segment carries that row; so the two agree wherever x holds real numbers, which
  the precondition gives (Proof/Spec.lean has the statement and the argument, Proof/Law.lean the algebra).

  The three frames: the kernel's at both instances are the generated frame runs; the reference has no kernel, and
  its frame is its generated run with the result dropped. The ideal pass rewrote nothing, so there is nothing to
  preserve. For the value claim the kernel's run is read block by block into one whole-array function
  (Proof/KernelValue.lean), the reference's run stage by stage (Proof/RefValue.lean), and the precondition gives
  the real entries (Proof/Finite.lean).
-/
import proofs.«160120_j2585570312451_1_alg».proof.Defs
import proofs.«160120_j2585570312451_1_alg».proof.Proof.Gen.Kernel
import proofs.«160120_j2585570312451_1_alg».proof.Proof.Gen.Kernel.Skeleton
import proofs.«160120_j2585570312451_1_alg».proof.Proof.Gen.Kernel.Launch
import proofs.«160120_j2585570312451_1_alg».proof.Proof.Gen.Kernel.Points
import proofs.«160120_j2585570312451_1_alg».proof.Proof.Gen.Kernel.Frame
import proofs.«160120_j2585570312451_1_alg».proof.Proof.Gen.KernelIdeal
import proofs.«160120_j2585570312451_1_alg».proof.Proof.Gen.KernelIdeal.Skeleton
import proofs.«160120_j2585570312451_1_alg».proof.Proof.Gen.KernelIdeal.Launch
import proofs.«160120_j2585570312451_1_alg».proof.Proof.Gen.KernelIdeal.Points
import proofs.«160120_j2585570312451_1_alg».proof.Proof.Gen.KernelIdeal.Frame
import proofs.«160120_j2585570312451_1_alg».proof.Proof.Gen.ReferenceIdeal
import proofs.«160120_j2585570312451_1_alg».proof.Proof.Gen.KernelIdeal.Value
import proofs.«160120_j2585570312451_1_alg».proof.Proof.Gen.ReferenceIdeal.Run
import proofs.«160120_j2585570312451_1_alg».proof.Proof.Gen.ReferenceIdeal.Read
import proofs.«160120_j2585570312451_1_alg».proof.Proof.Gen.Pre_finite_inputs
import proofs.«160120_j2585570312451_1_alg».proof.Proof.KernelValue
import proofs.«160120_j2585570312451_1_alg».proof.Proof.RefValue
import proofs.«160120_j2585570312451_1_alg».proof.Proof.Finite
import Idealize.ShloMosaic.Adequacy
import Idealize.ShloMosaic.Init

noncomputable section

namespace Cert.Proof

open Idealize.ShloMosaic Idealize.SL.Sem

/-- The word-level kernel runs, faults nowhere and leaves its arguments: the generated frame run. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the kernel's whole-array function of them:
    the kernel by its run read block by block, the reference because its own function of the arguments is that
    one wherever x is real. -/
theorem algebraic : Cert.algebraic_KernelIdeal_ReferenceIdeal := by
  intro m ρ m' ρ' hpre hagree
  refine ⟨fun c => Cert.KernelIdeal.Combine.result m c, Cert.KernelIdeal.Combine.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v27_eq,
    Cert.ReferenceIdeal.RefValue.ref_eq]
  exact (Cert.Segment.kerOut_eq_refOut Cert.Segment.facts _ _ _
    (fun i => Cert.Finite.x_real _ _ _ (hpre c) i)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
